-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S1000 : Shape := ⟨1, ![1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S1000 : S_.BroadcastsInDim S1000 (![] : Fin 0 → Fin S1000.rank)
  reducesTo_S1000_S_d0 : S1000.ReducesTo [0] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1000 .f32) (main_arg1 : FVec F S1000 .f32) (main_arg2 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S1000 .f32 := Host.absf main_arg1
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 32 := constantI S_ 32 1000#32
  let main_v11 : IVec S65536 32 := broadcastInDim S65536 ![] bcast_S_S65536 main_c_3
  let main_v12 : IVec S65536 1 := cmpi .slt main_arg2 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x1000 : Shape := ⟨2, ![65536, 1000]⟩
abbrev S1000 : Shape := ⟨1, ![1000]⟩
abbrev S65536 : Shape := ⟨1, ![65536]⟩
abbrev S65536x1 : Shape := ⟨2, ![65536, 1]⟩
abbrev S1x1000 : Shape := ⟨2, ![1, 1000]⟩
abbrev S64x1x1024 : Shape := ⟨3, ![64, 1, 1024]⟩
abbrev S1024x1000 : Shape := ⟨2, ![1024, 1000]⟩
abbrev S1024x1 : Shape := ⟨2, ![1024, 1]⟩
abbrev S1x1x1024 : Shape := ⟨3, ![1, 1, 1024]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S65536x1000, .f32⟩
  | .hbm, ⟨1, _⟩ => ⟨S1000, .f32⟩
  | .hbm, ⟨2, _⟩ => ⟨S65536, .i32⟩
  | .hbm, ⟨3, _⟩ => ⟨S65536x1, .i32⟩
  | .hbm, ⟨4, _⟩ => ⟨S1x1000, .f32⟩
  | .hbm, ⟨5, _⟩ => ⟨S64x1x1024, .f32⟩
  | .hbm, ⟨6, _⟩ => ⟨S65536, .f32⟩
  | .local _ .vmem, ⟨0, _⟩ => ⟨S1024x1000, .f32⟩
  | .local _ .vmem, ⟨1, _⟩ => ⟨S1024x1000, .f32⟩
  | .local _ .vmem, ⟨2, _⟩ => ⟨S1x1000, .f32⟩
  | .local _ .vmem, ⟨3, _⟩ => ⟨S1024x1, .i32⟩
  | .local _ .vmem, ⟨4, _⟩ => ⟨S1024x1, .i32⟩
  | .local _ .vmem, ⟨5, _⟩ => ⟨S1x1x1024, .f32⟩
  | .local _ .vmem, ⟨6, _⟩ => ⟨S1x1x1024, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S65536x1 : S65536.ShapeCasts S65536x1
  shapeCasts_S1000_S1x1000 : S1000.ShapeCasts S1x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  reduces_S1024x1000_S1024 : S1024x1000.Reduces [1] S1024
  shapeCasts_S1024_S1024x1 : S1024.ShapeCasts S1024x1
  inb_S1024x1000_S1024x1000_0_0 : ∀ a, (![0, 0] : Fin 2 → Nat) a + S1024x1000.size a ≤ S1024x1000.size a
  h_S1024x1000 : 0 < S1024x1000.numel
  shapeCasts_S1024x1_S1x1x1024 : S1024x1.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S64x1x1024_S65536 : S64x1x1024.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000.size a ≤ S1x1000.size a
  hwx0_1 : ∀ i : grid0.Coords, EltTy.bits .f32 = 32 ∨ (Rect.block (s := S1x1000) S1x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .i32 = 32 ∨ (Rect.block (s := S65536x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S64x1x1024.size a
  hwx0_3 : ∀ i : grid0.Coords, EltTy.bits .f32 = 32 ∨ (Rect.block (s := S64x1x1024) S1x1x1024.size (cc0_transform_3 i) (hinb0_3 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S1000 : Shape := ⟨1, ![1000]⟩
abbrev S65536 : Shape := ⟨1, ![65536]⟩
abbrev S65536x1 : Shape := ⟨2, ![65536, 1]⟩
abbrev S1x1000 : Shape := ⟨2, ![1, 1000]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S1000, .f32⟩
  | .hbm, ⟨2, _⟩ => ⟨S65536, .i32⟩
  | .hbm, ⟨3, _⟩ => ⟨S65536x1, .i32⟩
  | .hbm, ⟨4, _⟩ => ⟨S1x1000, .i32⟩
  | .hbm, ⟨5, _⟩ => ⟨S65536x1000, .i32⟩
  | .hbm, ⟨6, _⟩ => ⟨S65536x1000, .i32⟩
  | .hbm, ⟨7, _⟩ => ⟨S65536x1000, .i1⟩
  | .hbm, ⟨8, _⟩ => ⟨S65536x1000, .f32⟩
  | .hbm, ⟨9, _⟩ => ⟨S_, .f32⟩
  | .hbm, ⟨10, _⟩ => ⟨S65536x1000, .f32⟩
  | .hbm, ⟨11, _⟩ => ⟨S65536x1000, .f32⟩
  | .hbm, ⟨12, _⟩ => ⟨S_, .i32⟩
  | .hbm, ⟨13, _⟩ => ⟨S65536, .i32⟩
  | .hbm, ⟨14, _⟩ => ⟨S65536, .i1⟩
  | .hbm, ⟨15, _⟩ => ⟨S_, .i32⟩
  | .hbm, ⟨16, _⟩ => ⟨S65536, .i32⟩
  | .hbm, ⟨17, _⟩ => ⟨S65536, .i32⟩
  | .hbm, ⟨18, _⟩ => ⟨S65536, .i32⟩
  | .hbm, ⟨19, _⟩ => ⟨S65536x1, .i32⟩
  | .hbm, ⟨20, _⟩ => ⟨S65536, .f32⟩
  | .hbm, ⟨21, _⟩ => ⟨S65536x1, .f32⟩
  | .hbm, ⟨22, _⟩ => ⟨S65536x1000, .f32⟩
  | .hbm, ⟨23, _⟩ => ⟨S65536x1000, .f32⟩
  | .hbm, ⟨24, _⟩ => ⟨S_, .f32⟩
  | .hbm, ⟨25, _⟩ => ⟨S65536x1000, .f32⟩
  | .hbm, ⟨26, _⟩ => ⟨S65536x1000, .f32⟩
  | .hbm, ⟨27, _⟩ => ⟨S_, .f32⟩
  | .hbm, ⟨28, _⟩ => ⟨S65536, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S65536x1, .f32⟩
  | .hbm, ⟨33, _⟩ => ⟨S65536x1000, .f32⟩
  | .hbm, ⟨34, _⟩ => ⟨S65536x1000, .f32⟩
  | .hbm, ⟨35, _⟩ => ⟨S65536x1000, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S65536x1000, .f32⟩
  | .hbm, ⟨40, _⟩ => ⟨S65536x1000, .f32⟩
  | .hbm, ⟨41, _⟩ => ⟨S_, .f32⟩
  | .hbm, ⟨42, _⟩ => ⟨S65536x1000, .f32⟩
  | .hbm, ⟨43, _⟩ => ⟨S65536x1000, .f32⟩
  | .hbm, ⟨44, _⟩ => ⟨S65536x1000, .f32⟩
  | .hbm, ⟨45, _⟩ => ⟨S65536x1000, .f32⟩
  | .hbm, ⟨46, _⟩ => ⟨S_, .f32⟩
  | .hbm, ⟨47, _⟩ => ⟨S65536x1000, .f32⟩
  | .hbm, ⟨48, _⟩ => ⟨S65536x1000, .f32⟩
  | .hbm, ⟨49, _⟩ => ⟨S_, .f32⟩
  | .hbm, ⟨50, _⟩ => ⟨S65536x1000, .f32⟩
  | .hbm, ⟨51, _⟩ => ⟨S65536x1000, .f32⟩
  | .hbm, ⟨52, _⟩ => ⟨S65536x1000, .f32⟩
  | .hbm, ⟨53, _⟩ => ⟨S65536x1000, .f32⟩
  | .hbm, ⟨54, _⟩ => ⟨S65536x1000, .f32⟩
  | .hbm, ⟨55, _⟩ => ⟨S65536x1000, .f32⟩
  | .hbm, ⟨56, _⟩ => ⟨S_, .f32⟩
  | .hbm, ⟨57, _⟩ => ⟨S65536, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  bcast_S_S65536 : S_.BroadcastsInDim S65536 (![] : Fin 0 → Fin S65536.rank)
  reducesTo_S65536x1000_S65536_d1 : S65536x1000.ReducesTo [1] S65536
  h_S_ : 0 < S_.numel
  gather_S1000_S65536x1_S65536_n_0_n_n_0_1_1_wf : GatherDims.WF S1000 S65536x1 S65536 [] [0] [] [0] [] 1 ![1]

variable [Facts₀]

def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf

class Facts : Prop extends Facts₀ where

variable [Facts]
-- ==== Proof.RowLoss.lean ====
/-
  One row of the soft-label loss, in the two arrangements the programs compute it, and the law that joins them.

  For a row of logits x (n classes), class weights w, a label t and a temperature 4, let
    y_c = x_c / 4,  M = max_c y_c,  e_c = exp (y_c - M),  D = ∑_c e_c,  p_c = e_c / D   (the softmax of y).
  One arrangement sums over every class a one-hot-weighted pair of logarithms,
    ∑_c -( [c = t] · log (p_c + ε) + ((1 - [c = t]) · w_t) · log ((1 - p_c) + ε) ),
  the other first picks the label's entries by masked sums and factors the weight out,
    0 - ( log (p_t + ε) + w_t · ∑_{c ≠ t} log (1 + (ε - p_c)) ),   with p_c = e_c · (1 / D) and y_c = x_c · ¼.
  On the extended reals the two agree when the logits and the label's weight are finite and ε is a positive
  real: then M is a real (a maximum of finitely many reals), every e_c is a positive real, D > 0, and
  0 < p_c ≤ 1, so every logarithm's argument is a positive real and the whole computation is one over ℝ, where
  the identity is the distributive law and 1 + (ε - p) = (1 - p) + ε. Finiteness is what the step needs:
  w_t · ∑ … = ∑ w_t · … fails at infinities.
-/
import Idealize.ShloMosaic.PureOps.Ideal

noncomputable section

namespace Cert.RowLoss

open Idealize.ShloMosaic

/-! ## Sums and maxima of reals inside the extended reals -/

/-- A finite sum of reals, summed in the extended reals, is the real sum. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from -∞ in the extended reals, is a real once there is one of them. -/
theorem fold_max_coe {ι : Type} (s : Finset ι) (hs : s.Nonempty) (f : ι → ℝ) :
    ∃ r : ℝ, s.fold max (⊥ : EReal) (fun i => (f i : EReal)) = r := by
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-! ## The two arrangements -/

variable {n : ℕ}

/-- A row's maximum, from -∞. -/
def rowMax (y : Fin n → EReal) : EReal := (Finset.univ : Finset (Fin n)).fold max ⊥ y

/-- The softmax entry with the logits scaled by a factor q and the reciprocal of the denominator taken once. -/
def kProb (q : EReal) (x : Fin n → EReal) (c : Fin n) : EReal :=
  Ideal.exp (x c * q - rowMax fun k => x k * q)
    * Ideal.div 1 (∑ k, Ideal.exp (x k * q - rowMax fun k' => x k' * q))

/-- The loss with the label's entries picked by masked sums and the label's weight factored out. -/
def kLoss (q ε : EReal) (hit : Fin n → Prop) [DecidablePred hit] (x w : Fin n → EReal) : EReal :=
  0 - (Ideal.log ((∑ c, if hit c then kProb q x c else 0) + ε)
        + (∑ c, if hit c then w c else 0) * (∑ c, if hit c then 0 else Ideal.log1p (ε - kProb q x c)))

/-- The softmax entry with the logits divided by the temperature and each entry divided by the denominator. -/
def rProb (T : EReal) (x : Fin n → EReal) (c : Fin n) : EReal :=
  Ideal.div (Ideal.exp (Ideal.div (x c) T - rowMax fun k => Ideal.div (x k) T))
    (∑ k, Ideal.exp (Ideal.div (x k) T - rowMax fun k' => Ideal.div (x k') T))

/-- The loss as a sum over every class of the one-hot-weighted pair of logarithms (oh the one-hot row, wt the
    label's weight). -/
def rLoss (T ε : EReal) (oh : Fin n → EReal) (wt : EReal) (x : Fin n → EReal) : EReal :=
  ∑ c, -(oh c * Ideal.log (rProb T x c + ε) + ((1 - oh c) * wt) * Ideal.log ((1 - rProb T x c) + ε))

/-! ## The law over the reals -/

/-- Over ℝ: the one-hot row keeps the label's first logarithm and every other class's second one, and the
    weight factors out of their sum. -/
theorem real_rearrange (A B : Fin n → ℝ) (ω : ℝ) (t : Fin n) :
    ∑ c, -((if c = t then (1 : ℝ) else 0) * A c + ((1 - (if c = t then (1 : ℝ) else 0)) * ω) * B c)
      = 0 - (A t + ω * ∑ c, if c = t then 0 else B c) := by
  have h : ∀ c, -((if c = t then (1 : ℝ) else 0) * A c + ((1 - (if c = t then (1 : ℝ) else 0)) * ω) * B c)
      = (if c = t then -A c else 0) + -(ω * (if c = t then 0 else B c)) := by
    intro c; split_ifs <;> ring
  simp only [h, Finset.sum_add_distrib, Finset.sum_ite_eq', Finset.mem_univ, if_true, Finset.sum_neg_distrib,
    ← Finset.mul_sum]
  ring

/-- The masked-sum form depends on the mask, the logits and the weights only pointwise. -/
theorem kLoss_congr (q ε : EReal) (hit hit' : Fin n → Prop) [i1 : DecidablePred hit] [i2 : DecidablePred hit']
    (x x' w w' : Fin n → EReal) (hh : ∀ c, hit c ↔ hit' c) (hx : ∀ c, x c = x' c) (hw : ∀ c, w c = w' c) :
    kLoss q ε hit x w = kLoss q ε hit' x' w' := by
  obtain rfl : x = x' := funext hx
  obtain rfl : w = w' := funext hw
  obtain rfl : hit = hit' := funext fun c => propext (hh c)
  obtain rfl : i1 = i2 := Subsingleton.elim _ _
  rfl

/-! ## The law on the extended reals -/

/-- With finite logits, a finite weight at the label and a positive real ε, the sum over every class of the
    one-hot-weighted logarithms is the masked-sum form with the weight factored out: both are the same
    computation over ℝ (the row's maximum is a real, the exponentials positive reals, 0 < p ≤ 1, so each
    logarithm is of a positive real), and there the law is real_rearrange. -/
theorem rLoss_eq_kLoss (x w : Fin n → EReal) (t : Fin n) (q T ε : EReal) (εr : ℝ)
    (hx : ∀ c, ∃ r : ℝ, x c = r) (hw : ∃ r : ℝ, w t = r)
    (hq : q = ((1 / 4 : ℝ) : EReal)) (hT : T = ((4 : ℝ) : EReal)) (hε : ε = (εr : EReal)) (hpos : 0 < εr) :
    rLoss T ε (fun c => if c = t then 1 else 0) (w t) x = kLoss q ε (fun c => c = t) x w := by
  classical
  choose r hr using hx
  obtain ⟨ω, hω⟩ := hw
  subst hq hT hε
  -- the scaled logits, on both sides, are the reals r c * (1/4)
  have hy : ∀ k, x k * ((1 / 4 : ℝ) : EReal) = ((r k * (1 / 4) : ℝ) : EReal) :=
    fun k => by rw [hr k, ← EReal.coe_mul]
  have hdiv : ∀ k, Ideal.div (x k) ((4 : ℝ) : EReal) = ((r k * (1 / 4) : ℝ) : EReal) :=
    fun k => by rw [Ideal.div_coe (by norm_num : (4 : ℝ) ≠ 0), hr k, ← EReal.coe_mul]
  -- the row's maximum is a real
  obtain ⟨M, hM⟩ := fold_max_coe Finset.univ ⟨t, Finset.mem_univ t⟩ (fun c => r c * (1 / 4))
  -- exponentials, their sum, the softmax: reals, with 0 < p ≤ 1
  set e : Fin n → ℝ := fun c => Real.exp (r c * (1 / 4) - M) with he
  set D : ℝ := ∑ c, e c with hD
  have hDpos : 0 < D := Finset.sum_pos (fun c _ => Real.exp_pos _) ⟨t, Finset.mem_univ t⟩
  set p : Fin n → ℝ := fun c => e c * (1 / D) with hp
  have hp_pos : ∀ c, 0 < p c := fun c => mul_pos (Real.exp_pos _) (one_div_pos.mpr hDpos)
  have hp_le : ∀ c, p c ≤ 1 := fun c => by
    have hle : e c ≤ D := Finset.single_le_sum (f := e) (fun k _ => (Real.exp_pos _).le) (Finset.mem_univ c)
    show e c * (1 / D) ≤ 1
    rw [mul_one_div]; exact (div_le_one hDpos).mpr hle
  have hexp : ∀ k, Ideal.exp (((r k * (1 / 4) : ℝ) : EReal) - (M : EReal)) = (e k : EReal) := fun k => by
    rw [← EReal.coe_sub]; rfl
  have hk : ∀ c, kProb ((1 / 4 : ℝ) : EReal) x c = (p c : EReal) := fun c => by
    unfold kProb rowMax
    simp only [hy, hM, hexp]
    rw [coe_sum, Ideal.div_coe hDpos.ne', one_mul, ← EReal.coe_mul]
  have hrp : ∀ c, rProb ((4 : ℝ) : EReal) x c = (p c : EReal) := fun c => by
    unfold rProb rowMax
    simp only [hdiv, hM, hexp]
    rw [coe_sum, Ideal.div_coe hDpos.ne', ← EReal.coe_mul]
  -- the logarithms are of positive reals
  have hA : ∀ c, Ideal.log ((p c : EReal) + (εr : EReal)) = ((Real.log (p c + εr) : ℝ) : EReal) := fun c => by
    rw [← EReal.coe_add, Ideal.log_coe, if_neg (not_le.mpr (add_pos (hp_pos c) hpos))]
  have hB : ∀ c, Ideal.log ((1 - (p c : EReal)) + (εr : EReal)) = ((Real.log (1 - p c + εr) : ℝ) : EReal) := fun c => by
    rw [← EReal.coe_one, ← EReal.coe_sub, ← EReal.coe_add, Ideal.log_coe,
      if_neg (not_le.mpr (add_pos_of_nonneg_of_pos (sub_nonneg.mpr (hp_le c)) hpos))]
  have hB' : ∀ c, Ideal.log1p ((εr : EReal) - (p c : EReal)) = ((Real.log (1 - p c + εr) : ℝ) : EReal) := fun c => by
    unfold Ideal.log1p
    rw [← EReal.coe_sub, ← EReal.coe_one, ← EReal.coe_add, Ideal.log_coe,
      if_neg (not_le.mpr (by have := hp_le c; linarith)), show (1 : ℝ) + (εr - p c) = 1 - p c + εr by ring]
  -- both sides over ℝ
  have hind : ∀ c, (if c = t then (1 : EReal) else 0) = (((if c = t then (1 : ℝ) else 0) : ℝ) : EReal) := fun c => by
    split_ifs <;> simp
  have hmask : ∀ c, (if c = t then (0 : EReal) else ((Real.log (1 - p c + εr) : ℝ) : EReal))
      = (((if c = t then (0 : ℝ) else Real.log (1 - p c + εr)) : ℝ) : EReal) := fun c => by
    split_ifs <;> simp
  unfold rLoss kLoss
  simp only [hrp, hk, hA, hB, hB', hω, hind, hmask, Finset.sum_ite_eq', Finset.mem_univ, if_true]
  have hterm : ∀ c, -((((if c = t then (1 : ℝ) else 0) : ℝ) : EReal) * ((Real.log (p c + εr) : ℝ) : EReal)
        + ((1 - (((if c = t then (1 : ℝ) else 0) : ℝ) : EReal)) * (ω : EReal)) * ((Real.log (1 - p c + εr) : ℝ) : EReal))
      = ((-((if c = t then (1 : ℝ) else 0) * Real.log (p c + εr)
          + ((1 - (if c = t then (1 : ℝ) else 0)) * ω) * Real.log (1 - p c + εr)) : ℝ) : EReal) := fun c => by
    norm_cast
  simp only [hterm]
  rw [coe_sum, coe_sum, real_rearrange (fun c => Real.log (p c + εr)) (fun c => Real.log (1 - p c + εr)) ω t]
  norm_cast

end Cert.RowLoss

end
-- ==== Proof.Consts.lean ====
/-
  The float constants the two programs spell, as the extended reals their f32 patterns denote: the temperature's
  reciprocal 0.25 and the temperature 4.0 (exact dyadics, reciprocal to each other), 1.0, -∞ (the maxima's
  starting value), and ε = f32(1e-7), the one pattern both programs carry: a positive dyadic rational,
  14073749 / 2^47, of which only "a positive real" is used.
-/
import Idealize.ShloMosaic.PureOps.Ideal

noncomputable section

namespace Cert.Consts

open Idealize.ShloMosaic

/-- 0.25 denotes the real 1/4. -/
theorem ofBits_quarter : Ideal.ofBits .f32 0x3E800000#32 = ((1 / 4 : ℝ) : EReal) := by
  simp [Ideal.ofBits, Ideal.ieee, -EReal.coe_mul]; norm_num

/-- 4.0 denotes the real 4. -/
theorem ofBits_four : Ideal.ofBits .f32 0x40800000#32 = ((4 : ℝ) : EReal) := by
  simp [Ideal.ofBits, Ideal.ieee, -EReal.coe_mul]; norm_num

/-- 1.0 denotes 1. -/
theorem ofBits_one : Ideal.ofBits .f32 0x3F800000#32 = 1 := by
  simp [Ideal.ofBits, Ideal.ieee, -EReal.coe_mul]; norm_num

/-- The pattern of -inf denotes the bottom of the extended reals. -/
theorem ofBits_neg_inf : Ideal.ofBits .f32 0xFF800000#32 = ⊥ := by
  simp [Ideal.ofBits, Ideal.ieee]

/-- ε, f32's nearest to 1e-7, as a real. -/
def epsR : ℝ := 14073749 / 2 ^ 47

theorem epsR_pos : 0 < epsR := by unfold epsR; positivity

/-- ε's pattern denotes that positive real. -/
theorem ofBits_eps : Ideal.ofBits .f32 0x33D6BF95#32 = (epsR : EReal) := by
  simp [Ideal.ofBits, Ideal.ieee, -EReal.coe_mul, epsR]; norm_num

end Cert.Consts

end
-- ==== Proof.LibColumn.lean ====
/-
  Column vectors read at an index — the layout steps of every row reduction that keeps its axis (a sum or a maximum
  over the last axis with keepdims): a vector [a] viewed as a column [a, 1], a column viewed as a [1, 1, a] block, a
  column broadcast over the columns of an [a, b] matrix; and an arith.select on a word equality read as the
  conditional on the equation. Stated over literal-size indices built with ix1 / ix2 / ix3, at any element type.
-/
import Idealize.ShloMosaic.Lib.Pipeline.Value
import Idealize.ShloMosaic.Lib.StableHlo.Predicate
import Idealize.ShloMosaic.Lib.ValueIdx

namespace ColumnOps

open Idealize.ShloMosaic Idealize.ShloMosaic.ValueIdx

/-! ## A vector kept as a column, a column laid along a row, a column broadcast over columns -/

section Layout
variable {α : Type}

/-- A vector viewed as a column reads, at (p, 0), the vector at p. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h _ _ ?_
  rw [Shape.rowMajor_val_one, Shape.rowMajor_val_two]
  show p.val = p.val * 1 + 0
  omega

/-- A column viewed as a [1, 1, a] block reads, at (0, 0, p), the column at (p, 0). -/
theorem shapeCast_a1_11a_apply {a : ℕ} (x : (⟨2, ![a, 1]⟩ : Shape).Idx → α)
    (h : (⟨2, ![a, 1]⟩ : Shape).ShapeCasts ⟨3, ![1, 1, a]⟩) (p : Fin a) :
    shapeCast ⟨3, ![1, 1, a]⟩ x h (ix3 (0 : Fin 1) (0 : Fin 1) p) = x (ix2 p (0 : Fin 1)) := by
  refine shapeCast_apply x h _ _ ?_
  rw [Shape.rowMajor_val_two, Shape.rowMajor_val_three]
  show p.val * 1 + 0 = (0 * 1 + 0) * a + p.val
  omega

/-- A column broadcast over b columns reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-- A select on "a = b" as a word comparison is the conditional on the equation. -/
theorem select_cmpi_eq {α : Type} (a b : BitVec 32) (A B : α) :
    Scalar.select (IntOp.cmpi .eq a b) A B = if a = b then A else B := by
  unfold Scalar.select
  exact if_congr StableHlo.Predicate.cmpi_eq_iff rfl rfl

end ColumnOps
-- ==== Proof.KPayload.lean ====
/-
  The kernel body's arithmetic, read at an index. For row p of a block of 1024 rows, with the row's logits
  x0[p, ·], the class weights x1[0, ·] and the row's label word x2[p, 0], the body stores at [0, 0, p]
    0 - ( log (p_t + ε) + w_t · S ),
  where the class mask is "class number = label word", w_t and p_t are the masked sums of the weights and of the
  softmax p of the logits times ¼, and S the sum of log (1 + (ε - p_c)) over the classes the mask leaves out:
  RowLoss.kLoss of the row.
-/
import proofs.«422828_j77300821394028_3_alg».proof.Proof.Gen.KernelIdeal.Skeleton
import proofs.«422828_j77300821394028_3_alg».proof.Proof.RowLoss
import proofs.«422828_j77300821394028_3_alg».proof.Proof.Consts
import proofs.«422828_j77300821394028_3_alg».proof.Proof.LibColumn
import Idealize.ShloMosaic.Lib.Pipeline.Value
import Idealize.ShloMosaic.Lib.StableHlo.Predicate
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen
open Idealize.ShloMosaic Idealize.ShloMosaic.ValueIdx Cert.RowLoss ColumnOps

/-! ## A row's sum and a row's maximum, kept as a column -/

/-- The sum over the classes of a [1024, 1000] vector, kept as a column, at (p, 0): the sum of row p. -/
theorem rowsum_at (v : FVec Ideal S1024x1000 .f32) (h : S1024x1000.Reduces [1] S1024) (hc : S1024.ShapeCasts S1024x1)
    (p : Fin 1024) :
    shapeCast S1024x1 (multiReduction .add [1] S1024 v 0x00000000#32 h (.inl rfl) rfl) hc (ix2 p (0 : Fin 1))
      = ∑ c : Fin 1000, v (ix2 p c) := by
  rw [shapeCast_a_a1_apply]
  refine (Ideal.multiReduction_add_single v 0x00000000#32 h (.inl rfl) rfl (ix1 p)).trans ?_
  refine Finset.sum_congr rfl fun c _ => congrArg v ?_
  funext a
  exact Fin.ext (by match a with | ⟨0, _⟩ => rfl | ⟨1, _⟩ => rfl)

/-- The maximum over the classes, from -∞, kept as a column, at (p, 0): the maximum of row p. -/
theorem rowmax_at (v : FVec Ideal S1024x1000 .f32) (h : S1024x1000.Reduces [1] S1024) (hc : S1024.ShapeCasts S1024x1)
    (p : Fin 1024) :
    shapeCast S1024x1 (multiReduction .maximumf [1] S1024 v 0xFF800000#32 h (.inl rfl) rfl) hc (ix2 p (0 : Fin 1))
      = rowMax (fun c : Fin 1000 => v (ix2 p c)) := by
  rw [shapeCast_a_a1_apply]
  refine (Ideal.multiReduction_maximumf_single v 0xFF800000#32 h (.inl rfl) rfl (ix1 p)).trans ?_
  show Finset.univ.fold max (Ideal.ofBits .f32 0xFF800000#32) _ = _
  rw [Cert.Consts.ofBits_neg_inf]
  unfold rowMax
  congr 1
  funext c
  refine congrArg v ?_
  funext a
  exact Fin.ext (by match a with | ⟨0, _⟩ => rfl | ⟨1, _⟩ => rfl)

/-! ## The payloads at an index -/

/-- The temperature's reciprocal 0.25 and ε = f32(1e-7), as the kernel spells them. -/
abbrev qc : EReal := Ideal.ofBits .f32 0x3E800000#32
abbrev εc : EReal := Ideal.ofBits .f32 0x33D6BF95#32

variable (x0 : FVec Ideal S1024x1000 .f32) (x1 : FVec Ideal S1x1000 .f32) (x2 : IVec S1024x1 32)

/-- The class mask at (p, c): the class number c against row p's label word. -/
theorem pay2_at (p : Fin 1024) (c : Fin 1000) :
    k0_pay2 (F := Ideal) x2 (ix2 p c) = IntOp.cmpi .eq (BitVec.ofNat 32 c.val) (x2 (ix2 p (0 : Fin 1))) := by
  unfold k0_pay2
  try dsimp only
  show IntOp.cmpi .eq (iota .tc S1024x1000 32 [1] iota_S1024x1000_d1_w32 (ix2 p c))
    (broadcastTo S1024x1000 (shapeCast S1024x1 x2 shapeCasts_S1024x1_S1024x1) broadcasts_S1024x1_S1024x1000 (ix2 p c)) = _
  rw [iota_single_apply, broadcastTo_a1_ab_apply, shapeCast_self]

/-- The label's weight: the weights summed over the classes the mask keeps. -/
theorem pay3_at (p : Fin 1024) :
    k0_pay3 (F := Ideal) x2 x1 (ix2 p (0 : Fin 1))
      = ∑ c : Fin 1000, if BitVec.ofNat 32 c.val = x2 (ix2 p (0 : Fin 1)) then x1 (ix2 (0 : Fin 1) c) else 0 := by
  unfold k0_pay3
  try dsimp only
  refine (rowsum_at _ _ _ p).trans ?_
  refine Finset.sum_congr rfl fun c _ => ?_
  rw [select_apply, pay2_at, select_cmpi_eq, broadcastTo_1b_ab_apply, shapeCast_self, shapeCast_self, broadcast_apply]
  show (if _ then _ else Ideal.ofBits .f32 0x00000000#32) = _
  rw [Ideal.ofBits_zero_f32]

/-- The logits times ¼, -/
def sc : FVec Ideal S1024x1000 .f32 := mulf x0 (broadcast S1024x1000 (Scalar.ofBits .f32 0x3E800000#32))

/-- and their exponentials less each row's maximum. -/
def ex : FVec Ideal S1024x1000 .f32 :=
  exp (subf (sc x0) (broadcastTo S1024x1000 (shapeCast S1024x1
    (multiReduction .maximumf [1] S1024 (sc x0) 0xFF800000#32 reduces_S1024x1000_S1024 (.inl rfl) rfl)
    shapeCasts_S1024_S1024x1) broadcasts_S1024x1_S1024x1000))

/-- The softmax payload is each exponential times the reciprocal of its row's sum. -/
theorem pay4_unfold : k0_pay4 (F := Ideal) x0
    = mulf (ex x0) (broadcastTo S1024x1000 (divf (broadcast S1024x1 (Scalar.ofBits .f32 0x3F800000#32))
        (shapeCast S1024x1 (multiReduction .add [1] S1024 (ex x0) 0x00000000#32 reduces_S1024x1000_S1024 (.inl rfl) rfl)
          shapeCasts_S1024_S1024x1)) broadcasts_S1024x1_S1024x1000) := rfl

theorem ex_at (p : Fin 1024) (k : Fin 1000) :
    ex x0 (ix2 p k) = Ideal.exp (x0 (ix2 p k) * qc - rowMax (fun k' : Fin 1000 => x0 (ix2 p k') * qc)) := by
  unfold ex
  show Ideal.exp (sc x0 (ix2 p k) - broadcastTo S1024x1000 _ _ (ix2 p k)) = _
  rw [broadcastTo_a1_ab_apply, rowmax_at]
  rfl

/-- The softmax of row p's logits times ¼, at class c. -/
theorem pay4_at (p : Fin 1024) (c : Fin 1000) :
    k0_pay4 (F := Ideal) x0 (ix2 p c) = kProb qc (fun k : Fin 1000 => x0 (ix2 p k)) c := by
  rw [pay4_unfold, mulf_apply, broadcastTo_a1_ab_apply, divf_apply, broadcast_apply, rowsum_at, ex_at]
  simp only [ex_at]
  show _ * Ideal.div (Ideal.ofBits .f32 0x3F800000#32) _ = _
  rw [Cert.Consts.ofBits_one]
  rfl

/-- The sum, over the classes the mask leaves out, of log (1 + (ε - p_c)). -/
theorem pay5_at (p : Fin 1024) :
    k0_pay5 (F := Ideal) x2 x0 (ix2 p (0 : Fin 1))
      = ∑ c : Fin 1000, if BitVec.ofNat 32 c.val = x2 (ix2 p (0 : Fin 1)) then 0
          else Ideal.log1p (εc - kProb qc (fun k : Fin 1000 => x0 (ix2 p k)) c) := by
  unfold k0_pay5
  try dsimp only
  refine (rowsum_at _ _ _ p).trans ?_
  refine Finset.sum_congr rfl fun c _ => ?_
  rw [select_apply, pay2_at, select_cmpi_eq, broadcast_apply]
  show (if _ then Ideal.ofBits .f32 0x00000000#32
    else Ideal.log1p (Ideal.ofBits .f32 0x33D6BF95#32 - k0_pay4 (F := Ideal) x0 (ix2 p c))) = _
  rw [Ideal.ofBits_zero_f32, pay4_at]

/-- The logarithm of the label's probability (the masked sum of the softmax) plus ε. -/
theorem pay6_at (p : Fin 1024) :
    k0_pay6 (F := Ideal) x2 x0 (ix2 p (0 : Fin 1))
      = Ideal.log ((∑ c : Fin 1000, if BitVec.ofNat 32 c.val = x2 (ix2 p (0 : Fin 1))
          then kProb qc (fun k : Fin 1000 => x0 (ix2 p k)) c else 0) + εc) := by
  unfold k0_pay6
  try dsimp only
  show Ideal.log (shapeCast S1024x1 _ _ (ix2 p (0 : Fin 1)) + Ideal.ofBits .f32 0x33D6BF95#32) = _
  rw [rowsum_at]
  congr 2
  refine Finset.sum_congr rfl fun c _ => ?_
  rw [select_apply, pay2_at, select_cmpi_eq, broadcast_apply, pay4_at]
  show (if _ then _ else Ideal.ofBits .f32 0x00000000#32) = _
  rw [Ideal.ofBits_zero_f32]

/-- The stored value at (0, 0, p): zero less the sum of the label's logarithm and the weighted rest. -/
theorem pay1_at (v12 v37 v40 : FVec Ideal S1024x1 .f32) (p : Fin 1024) :
    k0_pay1 (F := Ideal) v12 v37 v40 (ix3 (0 : Fin 1) (0 : Fin 1) p)
      = 0 - (v40 (ix2 p (0 : Fin 1)) + v12 (ix2 p (0 : Fin 1)) * v37 (ix2 p (0 : Fin 1))) := by
  unfold k0_pay1
  try dsimp only
  rw [shapeCast_a1_11a_apply]
  show Ideal.ofBits .f32 0x00000000#32 - _ = _
  rw [Ideal.ofBits_zero_f32]
  rfl

/-- WHAT THE BODY STORES for row p of a block: the loss of the row, in the masked-sum arrangement. -/
theorem out_at (p : Fin 1024) :
    k0_pay1 (F := Ideal) (k0_pay3 x2 x1) (k0_pay5 x2 x0) (k0_pay6 x2 x0) (ix3 (0 : Fin 1) (0 : Fin 1) p)
      = kLoss qc εc (fun c : Fin 1000 => BitVec.ofNat 32 c.val = x2 (ix2 p (0 : Fin 1)))
          (fun k : Fin 1000 => x0 (ix2 p k)) (fun k : Fin 1000 => x1 (ix2 (0 : Fin 1) k)) := by
  rw [pay1_at, pay3_at, pay5_at, pay6_at]
  rfl

end Cert.KernelIdeal.KValue

end
-- ==== Proof.Spec.lean ====
/-
  The result both programs compute, as ONE function of the three argument arrays: entry r is the loss of row r —
  the row's logits pred[r, ·], the class weights, and the row's label word teacher[r] — in the masked-sum
  arrangement (RowLoss.kLoss), the class mask being "class number = label word".
-/
import proofs.«422828_j77300821394028_3_alg».proof.Proof.RowLoss
import Idealize.ShloMosaic.Lib.ValueIdx

noncomputable section

namespace Cert.Spec

open Idealize.ShloMosaic Idealize.ShloMosaic.ValueIdx Cert.RowLoss

/-- The temperature's reciprocal 0.25 and ε = f32(1e-7). -/
abbrev qc : EReal := Ideal.ofBits .f32 0x3E800000#32
abbrev εc : EReal := Ideal.ofBits .f32 0x33D6BF95#32

/-- The loss of row r. -/
def rowLoss (pred : (⟨2, ![65536, 1000]⟩ : Shape).Idx → EReal) (weight : (⟨1, ![1000]⟩ : Shape).Idx → EReal)
    (teacher : (⟨1, ![65536]⟩ : Shape).Idx → BitVec 32) (r : Fin 65536) : EReal :=
  kLoss qc εc (fun c : Fin 1000 => BitVec.ofNat 32 c.val = teacher (ix1 r)) (fun k : Fin 1000 => pred (ix2 r k))
    (fun k : Fin 1000 => weight (ix1 k))

/-- The result: every row's loss. -/
def loss (pred : (⟨2, ![65536, 1000]⟩ : Shape).Idx → EReal) (weight : (⟨1, ![1000]⟩ : Shape).Idx → EReal)
    (teacher : (⟨1, ![65536]⟩ : Shape).Idx → BitVec 32) : (⟨1, ![65536]⟩ : Shape).Idx → EReal :=
  fun j => rowLoss pred weight teacher (j 0)

end Cert.Spec

end
-- ==== Proof.KArray.lean ====
/-
  From blocks to the array, and the reshape after the region. Grid point t handles rows 1024·t … 1024·t + 1023: it
  reads block (t, 0) of the logits and of the label column and the one block of the weight row, and writes block
  (t, 0, 0) of the [64, 1, 1024] output, whose entry (t, 0, p) is therefore the loss of row 1024·t + p. The 64
  blocks tile the output, so the array ends holding that function everywhere; the host then views it as [65536],
  entry r being entry (r / 1024, 0, r % 1024): the loss of row r.
-/
import proofs.«422828_j77300821394028_3_alg».proof.Proof.Gen.KernelIdeal.Frame
import proofs.«422828_j77300821394028_3_alg».proof.Proof.KPayload
import proofs.«422828_j77300821394028_3_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx Cert.RowLoss ColumnOps
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has 64 points. -/
theorem t_lt (t : Fin cfg0.N) : t.val < 64 := by
  have h := t.isLt
  have e : cfg0.N = 64 := N_0
  omega

/-- The row grid point t handles at position p of its block. -/
def rowOf (t : Fin cfg0.N) (p : Fin 1024) : Fin 65536 :=
  ⟨t.val * 1024 + p.val, by have := t_lt t; have := p.isLt; omega⟩

/-- The printed index maps, decided over the grid: at point t the logits' and the labels' block is (t, 0), the
    weights' (0, 0), the output's (t, 0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The input blocks at a point, read off the arrays -/

/-- Row p of the logits' block at point t is row 1024·t + p of the logits. -/
theorem blk0_at (c : Dev nD) (t : Fin cfg0.N) (p : Fin 1024) (k : Fin 1000) :
    iblk m c 0 t (ix2 p k) = V m c main_arg0 (ix2 (rowOf t p) k) := by
  unfold iblk
  show V m c main_arg0 (((cfg0.win 0).blk t).view.emb (ix2 p k)) = _
  refine congrArg (V m c main_arg0) ?_
  obtain ⟨e00, e01, -⟩ := idx_facts t
  funext a
  apply Fin.ext
  match a with
  | ⟨0, _⟩ => show win0_0.index t (0 : Fin 2) * 1024 + 1 * p.val = t.val * 1024 + p.val; omega
  | ⟨1, _⟩ => show win0_0.index t (1 : Fin 2) * 1000 + 1 * k.val = k.val; omega

/-- The weights' block at every point is the weight row. -/
theorem blk1_at (c : Dev nD) (t : Fin cfg0.N) (k : Fin 1000) :
    iblk m c 1 t (ix2 (0 : Fin 1) k) = V m c main_v1 (ix2 (0 : Fin 1) k) := by
  unfold iblk
  show V m c main_v1 (((cfg0.win 1).blk t).view.emb (ix2 (0 : Fin 1) k)) = _
  refine congrArg (V m c main_v1) ?_
  obtain ⟨-, -, e10, e11, -⟩ := idx_facts t
  funext a
  apply Fin.ext
  match a with
  | ⟨0, _⟩ => show win0_1.index t (0 : Fin 2) * 1 + 1 * 0 = 0; omega
  | ⟨1, _⟩ => show win0_1.index t (1 : Fin 2) * 1000 + 1 * k.val = k.val; omega

/-- Entry p of the labels' block at point t is the label of row 1024·t + p. -/
theorem blk2_at (c : Dev nD) (t : Fin cfg0.N) (p : Fin 1024) :
    iblk m c 2 t (ix2 p (0 : Fin 1)) = V m c main_v0 (ix2 (rowOf t p) (0 : Fin 1)) := by
  unfold iblk
  show V m c main_v0 (((cfg0.win 2).blk t).view.emb (ix2 p (0 : Fin 1))) = _
  refine congrArg (V m c main_v0) ?_
  obtain ⟨-, -, -, -, e20, e21, -⟩ := idx_facts t
  funext a
  apply Fin.ext
  match a with
  | ⟨0, _⟩ => show win0_2.index t (0 : Fin 2) * 1024 + 1 * p.val = t.val * 1024 + p.val; omega
  | ⟨1, _⟩ => show win0_2.index t (1 : Fin 2) * 1 + 1 * 0 = 0; omega

/-! ## What point t writes back -/

/-- A [1, 1, 1024] vector is its entries (0, 0, p). -/
theorem ext_11a {α : Type} (X Y : (⟨3, ![1, 1, 1024]⟩ : Shape).Idx → α)
    (h : ∀ p : Fin 1024, X (ix3 (0 : Fin 1) (0 : Fin 1) p) = Y (ix3 (0 : Fin 1) (0 : Fin 1) p)) : X = Y := by
  funext j
  have e : j = ix3 (0 : Fin 1) (0 : Fin 1) (j 2) := by
    funext a
    apply Fin.ext
    match a with
    | ⟨0, _⟩ => show (j 0).val = 0; have : (j 0).val < 1 := (j 0).isLt; omega
    | ⟨1, _⟩ => show (j 1).val = 0; have : (j 1).val < 1 := (j 1).isLt; omega
    | ⟨2, _⟩ => rfl
  rw [e]
  exact h (j 2)

/-- The row an index of the [64, 1, 1024] output stands for. -/
def rowOfIdx (i : S64x1x1024.Idx) : Fin 65536 :=
  ⟨(i 0).val * 1024 + (i 2).val, by
    have h0 : (i 0).val < 64 := (i 0).isLt
    have h2 : (i 2).val < 1024 := (i 2).isLt
    omega⟩

/-- What the output array ends holding, over the arrays the three input windows stage: at (t, 0, p) the loss of row
    1024·t + p. -/
def H3 (A0 : FVec Ideal S65536x1000 .f32) (A1 : FVec Ideal S1x1000 .f32) (A2 : IVec S65536x1 32) : S64x1x1024.Idx → EReal :=
  fun i => kLoss qc εc (fun c : Fin 1000 => BitVec.ofNat 32 c.val = A2 (ix2 (rowOfIdx i) (0 : Fin 1)))
    (fun k : Fin 1000 => A0 (ix2 (rowOfIdx i) k)) (fun k : Fin 1000 => A1 (ix2 (0 : Fin 1) k))

/-- WHAT POINT t WRITES BACK is block t of that function of the arrays as the region finds them. -/
theorem flushed_eq (c : Dev nD) (t : Fin cfg0.N) :
    (dats m 0 c).flushed 3 t
      = ((cfg0.win 3).blk t).view.read (Elt Ideal) (H3 (V m c main_arg0) (V m c main_v1) (V m c main_v0)) := by
  show (cfg0.win 3).cut (grid0.coords t) ((dats m 0 c).after 3 t) = _
  rw [after0_3]
  unfold out0_3
  rw [View.canon_unit_zero hz3]
  simp only [View.ld_unit_zero (S := S1024x1) hz2, View.ld_unit_zero (S := S1x1000) hz2,
    View.ld_unit_zero (S := S1024x1000) hz2]
  refine ext_11a _ _ fun p => ?_
  refine (out_at (iblk m c 0 t) (iblk m c 1 t) (iblk m c 2 t) p).trans ?_
  show _ = H3 (V m c main_arg0) (V m c main_v1) (V m c main_v0)
    (((cfg0.win 3).blk t).view.emb (ix3 (0 : Fin 1) (0 : Fin 1) p))
  have e : ((cfg0.win 3).blk t).view.emb (ix3 (0 : Fin 1) (0 : Fin 1) p)
      = ix3 (⟨t.val, t_lt t⟩ : Fin 64) (0 : Fin 1) p := by
    obtain ⟨-, -, -, -, -, -, e30, e31, e32⟩ := idx_facts t
    funext a
    apply Fin.ext
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 1024 + 1 * p.val = p.val; omega
  rw [e]
  unfold H3
  refine kLoss_congr _ _ _ _ _ _ _ _ (fun k => ?_) (fun k => ?_) (fun k => ?_)
  · rw [blk2_at]; exact Iff.rfl
  · rw [blk0_at]; rfl
  · rw [blk1_at]

/-! ## The blocks tile the output -/

/-- An index of the output is in point t's block iff each coordinate is in the block's range on its axis. -/
theorem mem_blk3 (t : Fin cfg0.N) (i : S64x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v2).slice (win0_3.rect t)).set ↔ _
  rw [View.set_slice_whole, Rect.mem_set_unit]
  exact Iff.rfl

/-- Every block (q, 0, 0) is some point's. -/
theorem idx_onto3 : ∀ q0 : Fin 64, ∃ t : Fin cfg0.N, win0_3.index t = ![q0.val, 0, 0] :=
  (by decide +kernel : ∀ q0 : Fin 64, ∃ t : Fin grid0.N, win0_3.index t = ![q0.val, 0, 0])

/-- Every index of the output is in the block of the point its first coordinate names. -/
theorem cover3 (i : S64x1x1024.Idx) :
    ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 1024 := (i 2).isLt
  obtain ⟨t, ht⟩ := idx_onto3 ⟨(i 0).val, h0⟩
  refine ⟨t, flush0_3 t, ?_⟩
  rw [mem_blk3]
  have q0 : win0_3.index t (0 : Fin 3) = (i 0).val := congrFun ht 0
  have q1 : win0_3.index t (1 : Fin 3) = 0 := congrFun ht 1
  have q2 : win0_3.index t (2 : Fin 3) = 0 := congrFun ht 2
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1024 ≤ (i 2).val ∧ (i 2).val < win0_3.index t (2 : Fin 3) * 1024 + 1024; omega

/-- THE OUTPUT ARRAY after the run. -/
theorem final3 (c : Dev nD) :
    (dats m 0 c).arrAt 3 cfg0.N = H3 (V m c main_arg0) (V m c main_v1) (V m c main_v0) :=
  (dats m 0 c).arrAt_eq_of_cover 3 _ (fun t _ => flushed_eq m c t) cover3

/-! ## The host operations around the region -/

/-- The weight row the region finds: the class weights viewed [1, 1000]. -/
theorem V_v1 (c : Dev nD) :
    (V m c main_v1 : S1x1000.Idx → EReal) = shapeCast S1x1000 (m ((c : Thread nD τ).loc main_arg1)) shapeCasts_S1000_S1x1000 := by
  show StableHlo.after hostOps0 (fun b => m (c, b)) (Proc.devRef .tc main_v1) = _
  after_results
  rfl

/-- The label column the region finds: the labels viewed [65536, 1]. -/
theorem V_v0 (c : Dev nD) :
    (V m c main_v0 : S65536x1.Idx → BitVec 32) = shapeCast S65536x1 (m ((c : Thread nD τ).loc main_arg2)) shapeCasts_S65536_S65536x1 := by
  show StableHlo.after hostOps0 (fun b => m (c, b)) (Proc.devRef .tc main_v0) = _
  after_results
  rfl

/-- The result buffer after the lines that follow the region: the output array viewed [65536]. -/
theorem tail_v3 (c : Dev nD) :
    Pipeline.afterTail₀ cfgs (dats m) 0 (V0 m) [hostOps1] c main_v3
      = shapeCast S65536 ((dats m 0 c).arrAt 3 cfg0.N) shapeCasts_S64x1x1024_S65536 := by
  unfold Pipeline.afterTail₀
  show StableHlo.after hostOps1 _ (Proc.devRef .tc main_v3) = _
  after_results
  have hw := Pipeline.withArrays_arr (cfgs 0).spec launch0.win.arr_inj c (V0 m c)
    (fun w => (dats m 0 c).arrAt w (cfgs 0).N) 3
  funext i
  show shapeCast S65536 (Pipeline.withArrays (cfgs 0).spec c (V0 m c) (fun w => (dats m 0 c).arrAt w (cfgs 0).N)
    (Proc.devRef .tc (Pipeline.arrRef (cfgs 0).spec 3))) shapeCasts_S64x1x1024_S65536 i = _
  rw [hw]

/-! ## The result, as one function of the arguments -/

/-- The output array viewed [65536] reads, at r, its entry (r / 1024, 0, r % 1024): the loss of row r — with the
    weight row and the label column read back through their own views. -/
theorem loss_of_H3 (pred : FVec Ideal S65536x1000 .f32) (weight : FVec Ideal S1000 .f32) (teacher : IVec S65536 32)
    (j : S65536.Idx) :
    shapeCast S65536 (H3 pred (shapeCast S1x1000 weight shapeCasts_S1000_S1x1000)
        (shapeCast S65536x1 teacher shapeCasts_S65536_S65536x1)) shapeCasts_S64x1x1024_S65536 j
      = Cert.Spec.loss pred weight teacher j := by
  obtain ⟨r, rfl⟩ : ∃ r : Fin 65536, j = ix1 r := ⟨j 0, eq_ix1 j⟩
  have hr : r.val < 65536 := r.isLt
  refine (shapeCast_apply _ _ (ix1 r) (ix3 (⟨r.val / 1024, by omega⟩ : Fin 64) (0 : Fin 1)
    (⟨r.val % 1024, Nat.mod_lt _ (by norm_num)⟩ : Fin 1024)) ?_).trans ?_
  · rw [Shape.rowMajor_val_three, Shape.rowMajor_val_one]
    show (r.val / 1024 * 1 + 0) * 1024 + r.val % 1024 = r.val
    omega
  · have hrow : rowOfIdx (ix3 (⟨r.val / 1024, by omega⟩ : Fin 64) (0 : Fin 1)
        (⟨r.val % 1024, Nat.mod_lt _ (by norm_num)⟩ : Fin 1024)) = r :=
      Fin.ext (by show r.val / 1024 * 1024 + r.val % 1024 = r.val; omega)
    show H3 _ _ _ _ = Cert.Spec.rowLoss pred weight teacher r
    unfold H3 Cert.Spec.rowLoss
    rw [hrow]
    refine kLoss_congr _ _ _ _ _ _ _ _ (fun k => ?_) (fun k => rfl) (fun k => ?_)
    · rw [shapeCast_a_a1_apply]
    · rw [shapeCast_a_1a_apply]

/-- The result buffer's contents after the run, of the arguments as launched. -/
theorem value_v3 (c : Dev nD) :
    shapeCast S65536 ((dats m 0 c).arrAt 3 cfg0.N) shapeCasts_S64x1x1024_S65536
      = Cert.Spec.loss (m ((c : Thread nD τ).loc main_arg0)) (m ((c : Thread nD τ).loc main_arg1))
          (m ((c : Thread nD τ).loc main_arg2)) := by
  rw [final3, V_main_arg0, V_v1, V_v0]
  funext j
  exact loss_of_H3 _ _ _ j

/-- THE KERNEL'S RUN, READ: every weakly fair execution terminates with the result at the loss of every row and
    the arguments unchanged. -/
theorem run : θ_run defs (onTc (τ := τ) (main (F := Ideal))) ⟨m, fun _ => 0, ρ⟩ fun r => ∀ c : Dev nD,
      r.2.mem ((c.tc : Thread nD τ).loc main_v3)
        = Cert.Spec.loss (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      (((h c).2 main_v3 (Pipeline.mem_restRefs_of main_v3 (by decide) (by decide))).trans (tail_v3 m c)).trans
        (value_v3 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference, read at an index. Row r of its result is the sum over the classes of
    -( onehot_c · log (p_c + ε) + ((1 - onehot_c) · w[t_r]) · log ((1 - p_c) + ε) ),
  p the softmax of the row's logits divided by the temperature 4: RowLoss.rLoss of the row.
-/
import proofs.«422828_j77300821394028_3_alg».proof.Proof.Gen.ReferenceIdeal.Read
import proofs.«422828_j77300821394028_3_alg».proof.Proof.RowLoss
import proofs.«422828_j77300821394028_3_alg».proof.Proof.Consts
import Idealize.ShloMosaic.Lib.StableHlo.Predicate
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.RowLoss

/-- The temperature 4.0 and ε = f32(1e-7), as the programs spell them. -/
abbrev Tc : EReal := Ideal.ofBits .f32 0x40800000#32
abbrev εc : EReal := Ideal.ofBits .f32 0x33D6BF95#32

variable (pred : FVec Ideal S65536x1000 .f32) (weight : FVec Ideal S1000 .f32) (teacher : IVec S65536 32)

/-- A logit divided by the temperature. -/
theorem v14_at (i : S65536x1000.Idx) : val_main_v14 (F := Ideal) pred i = Ideal.div (pred i) Tc := by
  rw [val_main_v14_apply, val_main_v13_apply, val_main_cst_1_apply]; rfl

/-- The index the reduction over the classes inserts class k at, in row jj. -/
theorem lift_eq (h : S65536x1000.Reduces [1] S65536) (jj : S65536.Idx) (r : Fin 65536) (hr : jj 0 = r) (k : Fin 1000) :
    h.lift jj k = ix2 r k := by
  subst hr
  funext a
  exact Fin.ext (by match a with | ⟨0, _⟩ => rfl | ⟨1, _⟩ => rfl)

/-- A row's maximum of the scaled logits: the host's reduce from -∞, then the maximum with -∞ again. -/
theorem v17_at (jj : S65536.Idx) (r : Fin 65536) (hr : jj 0 = r) :
    val_main_v17 (F := Ideal) pred jj = rowMax (fun k : Fin 1000 => Ideal.div (pred (ix2 r k)) Tc) := by
  rw [val_main_v17_apply, val_main_v16_apply, val_main_cst_3_apply]
  unfold val_main_v15
  have hred : S65536x1000.Reduces [1] S65536 := by decide
  rw [Host.reduce_eq_fold_single (FloatOps.maximumf (F := Ideal) (φ := .f32)) _ _ reducesTo_S65536x1000_S65536_d1 hred h_S_ jj,
    val_main_cst_2_apply]
  have hfun : (val_main_v14 (F := Ideal) pred ∘ hred.lift jj) = fun k : Fin 1000 => Ideal.div (pred (ix2 r k)) Tc :=
    funext fun k => by rw [Function.comp_apply, lift_eq hred jj r hr k, v14_at]
  rw [hfun]
  show max (Ideal.ofBits .f32 0xFF800000#32) (Finset.univ.fold max (Ideal.ofBits .f32 0xFF800000#32) _) = _
  rw [Cert.Consts.ofBits_neg_inf]
  exact max_eq_right bot_le

/-- The exponential of a scaled logit less its row's maximum. -/
theorem v21_at (i : S65536x1000.Idx) (r : Fin 65536) (hr : i 0 = r) :
    val_main_v21 (F := Ideal) pred i
      = Ideal.exp (Ideal.div (pred i) Tc - rowMax (fun k : Fin 1000 => Ideal.div (pred (ix2 r k)) Tc)) := by
  rw [val_main_v21_apply, val_main_v20_apply, val_main_v19_apply, val_main_v18_apply, v14_at,
    v17_at pred _ r hr]
  rfl

/-- A row's sum of those exponentials (the host's sum from 0). -/
theorem v22_at (jj : S65536.Idx) (r : Fin 65536) (hr : jj 0 = r) :
    val_main_v22 (F := Ideal) pred jj
      = ∑ k : Fin 1000, Ideal.exp (Ideal.div (pred (ix2 r k)) Tc - rowMax (fun k' : Fin 1000 => Ideal.div (pred (ix2 r k')) Tc)) := by
  rw [val_main_v22_apply, val_main_cst_4_apply]
  show Ideal.ofBits .f32 0x00000000#32 + _ = _
  rw [Ideal.ofBits_zero_f32, zero_add]
  refine Finset.sum_congr rfl fun k _ => ?_
  have e : idx_main_v22 jj k = ix2 r k := by
    subst hr; funext a; exact Fin.ext (by match a with | ⟨0, _⟩ => rfl | ⟨1, _⟩ => rfl)
  rw [e, v21_at pred _ r rfl]

/-- The softmax entry of row r at class c. -/
theorem v25_at (r : Fin 65536) (c : Fin 1000) :
    val_main_v25 (F := Ideal) pred (ix2 r c) = rProb Tc (fun k : Fin 1000 => pred (ix2 r k)) c := by
  rw [val_main_v25_apply, val_main_v24_apply, val_main_v23_apply, v21_at pred _ r rfl, v22_at pred _ r rfl]
  rfl

/-- The one-hot entry: the label word compared with the class number, as 0 or 1. -/
theorem v0_at (r : Fin 65536) (c : Fin 1000) :
    val_main_v0 (F := Ideal) teacher (ix2 r c)
      = FloatOps.uitofp (F := Ideal) .f32 (IntOp.cmpi .eq (teacher (ix1 r)) (BitVec.ofNat 32 c.val)) := by
  rw [val_main_v0_apply, val_main_call0_v4_apply, val_main_call0_v2_apply, val_main_call0_v0_apply,
    val_main_call0_v3_apply, val_main_call0_v1_apply]
  have e : idx_main_call0_v0 (idx_main_call0_v2 (ix2 r c)) = ix1 r :=
    funext fun a => by match a with | ⟨0, _⟩ => rfl
  rw [e]

/-- Class numbers below 1000 are distinct as 32-bit words. -/
theorem ofNat_inj (a b : Fin 1000) : BitVec.ofNat 32 a.val = BitVec.ofNat 32 b.val ↔ a = b := by
  constructor
  · intro h
    have h' := congrArg BitVec.toNat h
    rw [BitVec.toNat_ofNat, BitVec.toNat_ofNat, Nat.mod_eq_of_lt (by have := a.isLt; omega),
      Nat.mod_eq_of_lt (by have := b.isLt; omega)] at h'
    exact Fin.ext h'
  · rintro rfl; rfl

/-- With the label word the class number t, the one-hot entry is 1 at t and 0 elsewhere. -/
theorem onehot_eq (tw : BitVec 32) (t c : Fin 1000) (ht : tw = BitVec.ofNat 32 t.val) :
    FloatOps.uitofp (F := Ideal) .f32 (IntOp.cmpi .eq tw (BitVec.ofNat 32 c.val)) = if c = t then (1 : EReal) else 0 := by
  subst ht
  show (((IntOp.cmpi .eq (BitVec.ofNat 32 t.val) (BitVec.ofNat 32 c.val)).toNat : ℝ) : EReal) = _
  by_cases h : c = t
  · subst h
    rw [if_pos rfl, (StableHlo.Predicate.cmpi_eq_iff).mpr rfl]
    simp
  · have hne : ¬ IntOp.cmpi .eq (BitVec.ofNat 32 t.val) (BitVec.ofNat 32 c.val) = 1#1 := fun h1 =>
      h ((ofNat_inj t c).mp (StableHlo.Predicate.cmpi_eq_iff.mp h1)).symm
    rw [if_neg h, eq_zero_of_ne_one hne]
    simp

/-- The class weight the reference gathers for row r: with the label word the class number t, the weight at t
    (a non-negative label is not wrapped, and one below 1000 is not clamped). -/
theorem v9_at (r : Fin 65536) (t : Fin 1000) (ht : teacher (ix1 r) = BitVec.ofNat 32 t.val) :
    val_main_v9 (F := Ideal) weight teacher (ix1 r) = weight (ix1 t) := by
  unfold val_main_v9
  have e1 : (ix1 r : S65536.Idx) = Shape.Idx.ofFin r := funext fun a => by match a with | ⟨0, _⟩ => rfl
  rw [e1, StableHlo.Predicate.gather_take gather_S1000_S65536x1_S65536_n_0_n_n_0_1_1 rfl rfl rfl rfl weight
    (val_main_v8 (F := Ideal) teacher) r (by decide)]
  have e2 : idx_main_v8 (StableHlo.Predicate.ixP r) = ix1 r := funext fun a => by match a with | ⟨0, _⟩ => rfl
  have hsel : val_main_v8 (F := Ideal) teacher (StableHlo.Predicate.ixP r) = BitVec.ofNat 32 t.val := by
    rw [val_main_v8_apply, val_main_v7_apply, val_main_v4_apply, val_main_v3_apply, val_main_c_apply, e2, ht]
    have hlt : ¬ IntOp.cmpi .slt (BitVec.ofNat 32 t.val) 0#32 = 1#1 := fun h1 => by
      have h2 := (StableHlo.Predicate.slt_ofNat_iff t.val 0 (by have := t.isLt; omega) (by norm_num)).mp h1
      omega
    rw [eq_zero_of_ne_one hlt, select_zero]
  congr 1
  funext a
  match a with
  | ⟨0, _⟩ =>
    apply Fin.ext
    show min (BitVec.toInt (val_main_v8 (F := Ideal) teacher (StableHlo.Predicate.ixP r))).toNat (1000 - 1) = t.val
    rw [hsel, StableHlo.Predicate.toInt_ofNat_small t.val (by have := t.isLt; omega), Int.toNat_natCast]
    have := t.isLt
    omega

/-- ROW r OF THE REFERENCE'S RESULT, for a label word that is the class number t: the sum over the classes of the
    one-hot-weighted pair of logarithms of the row's softmax. -/
theorem ref_row (r : Fin 65536) (t : Fin 1000) (ht : teacher (ix1 r) = BitVec.ofNat 32 t.val) :
    val_main_v38 (F := Ideal) pred weight teacher (ix1 r)
      = rLoss Tc εc (fun c : Fin 1000 => if c = t then 1 else 0) (weight (ix1 t)) (fun k : Fin 1000 => pred (ix2 r k)) := by
  rw [val_main_v38_apply, val_main_cst_8_apply]
  show Ideal.ofBits .f32 0x00000000#32 + _ = _
  rw [Ideal.ofBits_zero_f32, zero_add]
  unfold rLoss
  refine Finset.sum_congr rfl fun c _ => ?_
  have e : idx_main_v38 (ix1 r) c = ix2 r c :=
    funext fun a => Fin.ext (by match a with | ⟨0, _⟩ => rfl | ⟨1, _⟩ => rfl)
  have e3 : idx_main_v10 (idx_main_v11 (ix2 r c)) = ix1 r := funext fun a => by match a with | ⟨0, _⟩ => rfl
  rw [e, val_main_v37_apply, val_main_v36_apply, val_main_v29_apply, val_main_v35_apply, val_main_v12_apply,
    val_main_v2_apply, val_main_v1_apply, val_main_cst_apply, val_main_v28_apply, val_main_v27_apply, val_main_v26_apply,
    val_main_cst_5_apply, val_main_v34_apply, val_main_v33_apply, val_main_v31_apply, val_main_v30_apply,
    val_main_cst_6_apply, val_main_v32_apply, val_main_cst_7_apply, val_main_v11_apply, val_main_v10_apply, e3,
    v0_at, v25_at, onehot_eq _ t c ht, v9_at weight teacher r t ht]
  simp only [Ideal.ofBits_def, Cert.Consts.ofBits_one]
  rfl

end Cert.ReferenceIdeal.RefValue

end
-- ==== Proof.Pre.lean ====
/-
  The precondition, read. It is the conjunction of three "for all entries": every logit's absolute value is below
  +∞, every class weight's is, and every label t satisfies 0 ≤ t < 1000 as a signed word. An extended real whose
  absolute value max x (-x) is below +∞ is neither infinity, so it is a real; a 32-bit word that is non-negative and
  below 1000 as a signed number has the unsigned value below 1000.
-/
import proofs.«422828_j77300821394028_3_alg».proof.Pre_finite_inputs
import proofs.«422828_j77300821394028_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

/-- The rank-0 shape has one index. -/
instance : Subsingleton S_.Idx := ⟨fun _ _ => funext fun d => d.elim0⟩

/-- An extended real whose absolute value is below +∞ is a real. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- The pattern of +inf denotes the top of the extended reals. -/
theorem ofBits_pos_inf : Ideal.ofBits .f32 0x7F800000#32 = ⊤ := by
  simp [Ideal.ofBits, Ideal.ieee]

/-- A word in [0, n) as a signed number is below n as an unsigned one. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  unfold IntOp.cmpi at h0 h1
  rw [StableHlo.Predicate.ofBool_eq_one_iff] at h0 h1
  simp only [BitVec.slt, BitVec.sle, decide_eq_true_eq] at h0 h1
  rw [StableHlo.Predicate.toInt_ofNat_small n hn] at h1
  have hz : (0#32 : BitVec 32).toInt = 0 := by decide
  rw [hz] at h0
  have hlt := w.isLt
  rw [BitVec.toInt_eq_toNat_cond] at h0 h1
  split at h0 <;> omega

variable (pred : FVec Ideal S65536x1000 .f32) (weight : FVec Ideal S1000 .f32) (teacher : IVec S65536 32)

/-- THE PRECONDITION DECODED: finite logits, finite class weights, labels in range. -/
theorem decode (h : Cert.Pre_finite_inputs.fn (F := Ideal) pred weight teacher = fun _ => 1#1) :
    (∀ i, ∃ r : ℝ, pred i = r) ∧ (∀ i, ∃ r : ℝ, weight i = r) ∧ (∀ j, (teacher j).toNat < 1000) := by
  have e := congrFun h ValueIdx.ix0
  dsimp only [Cert.Pre_finite_inputs.fn] at e
  simp only [andi] at e
  rw [IntOp.andi_eq_one, IntOp.andi_eq_one] at e
  obtain ⟨⟨h1, h2⟩, h3⟩ := e
  refine ⟨fun i => ?_, fun i => ?_, fun j => ?_⟩
  · have hi := Host.reduce_andi_all _ _ _ _ _ h1 i
    change Ideal.cmp .olt (max (pred i) (-(pred i))) (Ideal.ofBits .f32 0x7F800000#32) = 1#1 at hi
    rw [ofBits_pos_inf] at hi
    exact real_of_abs_lt_top _ hi
  · have hi := Host.reduce_andi_all _ _ _ _ _ h2 i
    change Ideal.cmp .olt (max (weight i) (-(weight i))) (Ideal.ofBits .f32 0x7F800000#32) = 1#1 at hi
    rw [ofBits_pos_inf] at hi
    exact real_of_abs_lt_top _ hi
  · have hj := Host.reduce_andi_all _ _ _ _ _ h3 j
    change IntOp.andi (IntOp.cmpi .sge (teacher j) 0#32) (IntOp.cmpi .slt (teacher j) (BitVec.ofNat 32 1000)) = 1#1 at hj
    obtain ⟨ha, hb⟩ := IntOp.andi_eq_one.mp hj
    exact toNat_lt_of_signed_range _ 1000 (by norm_num) ha hb

end Cert.PreDecode

end
-- ==== Proof.Bridge.lean ====
/-
  Under the precondition the reference computes the same function of the arguments as the kernel. For row r the
  label word is a class number t below 1000, so the one-hot row is the indicator of t and the gathered weight is
  w[t]; the logits and w[t] are finite; ε is a positive real, ¼ and 4 reciprocal reals: RowLoss.rLoss_eq_kLoss turns
  the reference's sum over every class into the masked-sum form, and the mask "c = t" is the mask "class number =
  label word".
-/
import proofs.«422828_j77300821394028_3_alg».proof.Proof.RefValue
import proofs.«422828_j77300821394028_3_alg».proof.Proof.Pre
import proofs.«422828_j77300821394028_3_alg».proof.Proof.Spec
import proofs.«422828_j77300821394028_3_alg».proof.Proof.Consts

noncomputable section

namespace Cert.ReferenceIdeal.RefValue

open Cert.ReferenceIdeal Cert.ReferenceIdeal.Gen Cert.ReferenceIdeal.Read
open Idealize.ShloMosaic Idealize.ShloMosaic.ValueIdx Cert.RowLoss

/-- THE REFERENCE'S RESULT under the precondition: the loss of every row, in the masked-sum arrangement. -/
theorem ref_eq_loss (pred : FVec Ideal S65536x1000 .f32) (weight : FVec Ideal S1000 .f32) (teacher : IVec S65536 32)
    (hpre : Cert.Pre_finite_inputs.fn (F := Ideal) pred weight teacher = fun _ => 1#1) :
    val_main_v38 (F := Ideal) pred weight teacher = Cert.Spec.loss pred weight teacher := by
  obtain ⟨hx, hw, ht⟩ := Cert.PreDecode.decode pred weight teacher hpre
  funext j
  obtain ⟨r, rfl⟩ : ∃ r : Fin 65536, j = ix1 r := ⟨j 0, eq_ix1 j⟩
  -- the label word of row r is a class number
  obtain ⟨t, htw⟩ : ∃ t : Fin 1000, teacher (ix1 r) = BitVec.ofNat 32 t.val := by
    refine ⟨⟨(teacher (ix1 r)).toNat, ht (ix1 r)⟩, ?_⟩
    apply BitVec.eq_of_toNat_eq
    rw [BitVec.toNat_ofNat]
    exact (Nat.mod_eq_of_lt (by have := ht (ix1 r); omega)).symm
  rw [ref_row pred weight teacher r t htw,
    rLoss_eq_kLoss (fun k : Fin 1000 => pred (ix2 r k)) (fun k : Fin 1000 => weight (ix1 k)) t Cert.Spec.qc Tc εc
      Cert.Consts.epsR (fun k => hx _) (hw _) Cert.Consts.ofBits_quarter Cert.Consts.ofBits_four
      Cert.Consts.ofBits_eps Cert.Consts.epsR_pos]
  show _ = Cert.Spec.rowLoss pred weight teacher r
  unfold Cert.Spec.rowLoss
  refine kLoss_congr _ _ _ _ _ _ _ _ (fun c => ?_) (fun _ => rfl) (fun _ => rfl)
  rw [htw]
  exact (ofNat_inj c t).symm

end Cert.ReferenceIdeal.RefValue

end
-- ==== Proof.lean ====
/-
  The soft-label distillation loss of 65536 rows over 1000 classes: a Pallas kernel against its jnp reference,
  equal over the extended reals for finite logits and class weights and labels in [0, 1000).

  For row r with logits x, label t and class weights w, let p be the softmax of x / 4. The reference sums over
  every class  -( onehot_c · log (p_c + ε) + ((1 - onehot_c) · w_t) · log ((1 - p_c) + ε) ),  gathering w_t and
  dividing by the temperature and by the softmax's denominator. The kernel, 1024 rows to a grid point, picks w_t
  and p_t by sums masked with "class number = label", multiplies by ¼ and by the reciprocal of the denominator,
  sums log (1 + (ε - p_c)) over the classes the mask leaves out, and stores  0 - (log (p_t + ε) + w_t · that sum);
  the host views the [64, 1, 1024] result as [65536].

  Both are ONE function of the arguments, Spec.loss (the masked-sum arrangement, row by row). The kernel's side
  holds on every input: its body's arithmetic read at an index (Proof/KPayload.lean), its blocks tiling the output
  and the reshape after the region (Proof/KArray.lean). The reference's side (Proof/RefValue.lean, its run read at
  an index; Proof/Bridge.lean) needs the precondition (Proof/Pre.lean): with the label a class number the one-hot
  row is its indicator and the gather reads w_t, and with finite logits and weights every quantity is a real —
  the row's maximum, the positive exponentials and their sum, 0 < p ≤ 1, each logarithm's positive argument — so
  the rearrangement is the distributive law over ℝ (Proof/RowLoss.lean); at an infinity it would fail. The
  constants are exact: ¼ and 4 reciprocal, ε the same positive dyadic on both sides (Proof/Consts.lean).
  The idealization rewrote nothing, so it is preserved trivially; the kernel's two frames are the generated ones,
  and the reference's frame is its generated run with the result dropped.
-/
import proofs.«422828_j77300821394028_3_alg».proof.Defs
import proofs.«422828_j77300821394028_3_alg».proof.Proof.Gen.Kernel
import proofs.«422828_j77300821394028_3_alg».proof.Proof.Gen.Kernel.Skeleton
import proofs.«422828_j77300821394028_3_alg».proof.Proof.Gen.Kernel.Launch
import proofs.«422828_j77300821394028_3_alg».proof.Proof.Gen.Kernel.Points
import proofs.«422828_j77300821394028_3_alg».proof.Proof.Gen.Kernel.Frame
import proofs.«422828_j77300821394028_3_alg».proof.Proof.Gen.KernelIdeal
import proofs.«422828_j77300821394028_3_alg».proof.Proof.Gen.KernelIdeal.Skeleton
import proofs.«422828_j77300821394028_3_alg».proof.Proof.Gen.KernelIdeal.Launch
import proofs.«422828_j77300821394028_3_alg».proof.Proof.Gen.KernelIdeal.Points
import proofs.«422828_j77300821394028_3_alg».proof.Proof.Gen.KernelIdeal.Frame
import proofs.«422828_j77300821394028_3_alg».proof.Proof.Gen.ReferenceIdeal
import proofs.«422828_j77300821394028_3_alg».proof.Proof.Gen.ReferenceIdeal.Run
import proofs.«422828_j77300821394028_3_alg».proof.Proof.Gen.ReferenceIdeal.Read
import proofs.«422828_j77300821394028_3_alg».proof.Proof.Gen.Pre_finite_inputs
import proofs.«422828_j77300821394028_3_alg».proof.Proof.KArray
import proofs.«422828_j77300821394028_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the loss of every row of the (agreeing) arguments: the kernel's on every
    input, the reference's under the precondition. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  exact Cert.ReferenceIdeal.RefValue.ref_eq_loss _ _ _ (hpre c)

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
